-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 74
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S128x128, .f32⟩
  | .hbm, ⟨72, _⟩ => ⟨S1x128, .f32⟩
  | .hbm, ⟨73, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelTile.lean ====
/-
  The kernel body's arithmetic on one 4000-row tile, read entry by entry at the extended reals.
  A tile's output entry (p, q) is  ∑ₖ a[p, k] · wl[k, q] + ∑ₖ x[p, k] · wr[k, q] + b[0, q]  (then `max(·, 0)` in the
  first call): the two products go through the matrix unit into a zero accumulator, which at the extended reals is
  the plain sum over the contracted axis; the narrowing to 16-bit floats before the products is the identity there.
-/
import proofs.«152219_j35459249996470_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-! ## The matrix product of a tile with a weight matrix -/

/-- The left operand's row coordinate is the output's row. -/
theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contracted index. -/
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contracted index. -/
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's column. -/
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A tile times a weight matrix into the zero accumulator: entry (p, q) is ∑ₖ l[p, k] · r[k, q]. -/
theorem tileProduct_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The two calls' stored values -/

/-- The first call's stored tile at (p, q): both products, the bias row, then the rectifier. -/
theorem pay0_apply (a x : Vec Ideal S4000x128 .f32) (wl wr : Vec Ideal S128x128 .f32) (b : Vec Ideal S1x128 .f32) (p : Fin 4000) (q : Fin 128) :
    k0_pay1 (F := Ideal) a x wl wr b (ix2 p q)
      = max ((∑ k : Fin 128, a (ix2 p k) * wl (ix2 k q)) + (∑ k : Fin 128, x (ix2 p k) * wr (ix2 k q)) + b (ix2 (0 : Fin 1) q)) 0 := by
  unfold k0_pay1
  rw [maximumf_apply, addf_apply, addf_apply, tileProduct_apply, tileProduct_apply, broadcastTo_1b_ab_apply, broadcast_apply]
  simp only [truncf_apply, shapeCast_self]
  exact congrArg (max _) Ideal.ofBits_zero_f32

/-- The second call's stored tile at (p, q): both products and the bias row. -/
theorem pay1_apply (a x : Vec Ideal S4000x128 .f32) (wl wr : Vec Ideal S128x128 .f32) (b : Vec Ideal S1x128 .f32) (p : Fin 4000) (q : Fin 128) :
    k1_pay1 (F := Ideal) a x wl wr b (ix2 p q)
      = (∑ k : Fin 128, a (ix2 p k) * wl (ix2 k q)) + (∑ k : Fin 128, x (ix2 p k) * wr (ix2 k q)) + b (ix2 (0 : Fin 1) q) := by
  unfold k1_pay1
  rw [addf_apply, addf_apply, tileProduct_apply, tileProduct_apply, broadcastTo_1b_ab_apply]
  simp only [truncf_apply, shapeCast_self]

end Cert.KernelIdeal.Tile

end
-- ==== Proof.Spec.lean ====
/-
  Two stacked mean-aggregation graph layers over 100000 nodes with 128 features, as plain functions on the
  extended reals. One layer, for node `r` and output feature `q`:

      out[r, q] = ∑ₖ mean[r, k] · wl[k, q]  +  ∑ₖ x[r, k] · wr[k, q]  +  b[q]

  where `mean` is the per-node average of the neighbours' rows (computed outside this file, by the same
  gather / scatter-add / divide chain in both programs, and never opened), `wl`, `wr` are the two weight
  matrices already transposed, and `b` the bias. The first layer is followed by `max(·, 0)`.
  The two programs differ only in where they add the bias: `(A + B) + b` against `(A + b) + B`; addition on
  the extended reals is commutative and associative (⊥ absorbs), so the two agree with no finiteness needed.
-/
import Idealize.ShloMosaic.PureOps.Ideal
import Idealize.ShloMosaic.PureOps.Ideal.Laws
import Idealize.ShloMosaic.Lib.ValueIdx

noncomputable section

namespace Sage

open Idealize.ShloMosaic Idealize.ShloMosaic.ValueIdx

/-- A node-feature table: 100000 rows of 128 features. -/
abbrev Nodes : Shape := ⟨2, ![100000, 128]⟩
/-- A 128 × 128 weight matrix (input feature, output feature). -/
abbrev Wts : Shape := ⟨2, ![128, 128]⟩
/-- A bias vector. -/
abbrev Feat : Shape := ⟨1, ![128]⟩

/-- The layer's value for node `r` and output feature `q`: the two matrix products' entries, then the bias. -/
def combineAt (mean x : Nodes.Idx → EReal) (wl wr : Wts.Idx → EReal) (b : Feat.Idx → EReal) (r : Fin 100000) (q : Fin 128) : EReal :=
  (∑ k : Fin 128, mean (ix2 r k) * wl (ix2 k q)) + (∑ k : Fin 128, x (ix2 r k) * wr (ix2 k q)) + b (ix1 q)

/-- The layer as a whole table. -/
def combine (mean x : Nodes.Idx → EReal) (wl wr : Wts.Idx → EReal) (b : Feat.Idx → EReal) : Nodes.Idx → EReal :=
  fun i => combineAt mean x wl wr b (i 0) (i 1)

/-- The layer followed by the rectifier. -/
def combineRelu (mean x : Nodes.Idx → EReal) (wl wr : Wts.Idx → EReal) (b : Feat.Idx → EReal) : Nodes.Idx → EReal :=
  fun i => max (combineAt mean x wl wr b (i 0) (i 1)) 0

theorem combine_apply (mean x : Nodes.Idx → EReal) (wl wr : Wts.Idx → EReal) (b : Feat.Idx → EReal) (r : Fin 100000) (q : Fin 128) :
    combine mean x wl wr b (ix2 r q) = combineAt mean x wl wr b r q := rfl

theorem combineRelu_apply (mean x : Nodes.Idx → EReal) (wl wr : Wts.Idx → EReal) (b : Feat.Idx → EReal) (r : Fin 100000) (q : Fin 128) :
    combineRelu mean x wl wr b (ix2 r q) = max (combineAt mean x wl wr b r q) 0 := rfl

/-- Adding the bias before or after the second product is the same sum. -/
theorem bias_between (A B b : EReal) : A + b + B = A + B + b := add_right_comm A b B

end Sage

end
-- ==== Proof.KernelLayers.lean ====
/-
  What each of the two tiled calls leaves in its output table, as one function of the tables the call finds.
  Call `r` walks 25 tiles of 4000 rows; tile `t` reads rows 4000·t … 4000·t + 3999 of its two row-tiled
  operands, the two weight matrices and the bias row whole, and writes rows 4000·t … of the output. Entry
  (p, q) of the written tile is the layer's value for node 4000·t + p and feature q, so the 25 tiles
  together write the whole layer (`Sage.combineRelu` for the first call, `Sage.combine` for the second).
-/
import proofs.«152219_j35459249996470_1_alg».proof.Proof.KernelIdealFrame
import proofs.«152219_j35459249996470_1_alg».proof.Proof.KernelTile
import proofs.«152219_j35459249996470_1_alg».proof.Proof.Spec
import Idealize.ShloMosaic.Lib.Pipeline.Value

set_option maxRecDepth 16384

noncomputable section

namespace Cert.KernelIdeal.Layer

open Cert.KernelIdeal Cert.KernelIdeal.Gen Cert.KernelIdeal.GenP Cert.KernelIdeal.Tile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- Row `p` of tile `t` is row 4000·t + p of the table. -/
abbrev tileRow (t : Fin 25) (p : Fin 4000) : Fin 100000 := ⟨t.val * 4000 + p.val, by have := t.isLt; have := p.isLt; omega⟩

/-! ## The first call -/

/-- The tile each window shows at point `t`: the row-tiled ones move with `t`, the others stay at the origin. -/
theorem tiles0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five input tiles at a point, at their literal types. -/
abbrev aTile0 (c : Dev nD) (t : Fin cfg0.N) : Vec Ideal S4000x128 .f32 := iblk0 V c 0 t
abbrev xTile0 (c : Dev nD) (t : Fin cfg0.N) : Vec Ideal S4000x128 .f32 := iblk0 V c 1 t
abbrev wlTile0 (c : Dev nD) (t : Fin cfg0.N) : Vec Ideal S128x128 .f32 := iblk0 V c 2 t
abbrev wrTile0 (c : Dev nD) (t : Fin cfg0.N) : Vec Ideal S128x128 .f32 := iblk0 V c 3 t
abbrev bTile0 (c : Dev nD) (t : Fin cfg0.N) : Vec Ideal S1x128 .f32 := iblk0 V c 4 t

/-- The tables the first call finds, at their literal types. -/
abbrev aArr0 (c : Dev nD) : Sage.Nodes.Idx → EReal := V c main_v22
abbrev xArr0 (c : Dev nD) : Sage.Nodes.Idx → EReal := V c main_arg0
abbrev wlArr0 (c : Dev nD) : Sage.Wts.Idx → EReal := V c main_v23
abbrev wrArr0 (c : Dev nD) : Sage.Wts.Idx → EReal := V c main_v24
abbrev bArr0 (c : Dev nD) : (⟨2, ![1, 128]⟩ : Shape).Idx → EReal := V c main_v25

theorem aTile0_apply (c : Dev nD) (t : Fin cfg0.N) (p : Fin 4000) (k : Fin 128) :
    aTile0 V c t (ix2 p k) = aArr0 V c (ix2 (tileRow t p) k) := by
  show V c main_v22 (((cfg0.win 0).blk t).view.emb (ix2 p k)) = V c main_v22 (ix2 (tileRow t p) k)
  refine congrArg (V c main_v22) (funext fun a => Fin.ext ?_)
  obtain ⟨e0, e1, -⟩ := tiles0 t
  match a with
  | ⟨0, _⟩ => show win0_0.index t (0 : Fin 2) * 4000 + 1 * p.val = t.val * 4000 + p.val; omega
  | ⟨1, _⟩ => show win0_0.index t (1 : Fin 2) * 128 + 1 * k.val = k.val; omega

theorem xTile0_apply (c : Dev nD) (t : Fin cfg0.N) (p : Fin 4000) (k : Fin 128) :
    xTile0 V c t (ix2 p k) = xArr0 V c (ix2 (tileRow t p) k) := by
  show V c main_arg0 (((cfg0.win 1).blk t).view.emb (ix2 p k)) = V c main_arg0 (ix2 (tileRow t p) k)
  refine congrArg (V c main_arg0) (funext fun a => Fin.ext ?_)
  obtain ⟨-, -, e0, e1, -⟩ := tiles0 t
  match a with
  | ⟨0, _⟩ => show win0_1.index t (0 : Fin 2) * 4000 + 1 * p.val = t.val * 4000 + p.val; omega
  | ⟨1, _⟩ => show win0_1.index t (1 : Fin 2) * 128 + 1 * k.val = k.val; omega

theorem wlTile0_apply (c : Dev nD) (t : Fin cfg0.N) (k q : Fin 128) :
    wlTile0 V c t (ix2 k q) = wlArr0 V c (ix2 k q) := by
  show V c main_v23 (((cfg0.win 2).blk t).view.emb (ix2 k q)) = V c main_v23 (ix2 k q)
  refine congrArg (V c main_v23) (funext fun a => Fin.ext ?_)
  obtain ⟨-, -, -, -, e0, e1, -⟩ := tiles0 t
  match a with
  | ⟨0, _⟩ => show win0_2.index t (0 : Fin 2) * 128 + 1 * k.val = k.val; omega
  | ⟨1, _⟩ => show win0_2.index t (1 : Fin 2) * 128 + 1 * q.val = q.val; omega

theorem wrTile0_apply (c : Dev nD) (t : Fin cfg0.N) (k q : Fin 128) :
    wrTile0 V c t (ix2 k q) = wrArr0 V c (ix2 k q) := by
  show V c main_v24 (((cfg0.win 3).blk t).view.emb (ix2 k q)) = V c main_v24 (ix2 k q)
  refine congrArg (V c main_v24) (funext fun a => Fin.ext ?_)
  obtain ⟨-, -, -, -, -, -, e0, e1, -⟩ := tiles0 t
  match a with
  | ⟨0, _⟩ => show win0_3.index t (0 : Fin 2) * 128 + 1 * k.val = k.val; omega
  | ⟨1, _⟩ => show win0_3.index t (1 : Fin 2) * 128 + 1 * q.val = q.val; omega

theorem bTile0_apply (c : Dev nD) (t : Fin cfg0.N) (q : Fin 128) :
    bTile0 V c t (ix2 (0 : Fin 1) q) = bArr0 V c (ix2 (0 : Fin 1) q) := by
  show V c main_v25 (((cfg0.win 4).blk t).view.emb (ix2 (0 : Fin 1) q)) = V c main_v25 (ix2 (0 : Fin 1) q)
  refine congrArg (V c main_v25) (funext fun a => Fin.ext ?_)
  obtain ⟨-, -, -, -, -, -, -, -, e0, e1, -⟩ := tiles0 t
  match a with
  | ⟨0, _⟩ => show win0_4.index t (0 : Fin 2) * 1 + 1 * 0 = 0; omega
  | ⟨1, _⟩ => show win0_4.index t (1 : Fin 2) * 128 + 1 * q.val = q.val; omega

/-- The first layer with the bias read off its one-row table. -/
def layer0 (c : Dev nD) : Sage.Nodes.Idx → EReal :=
  Sage.combineRelu (aArr0 V c) (xArr0 V c) (wlArr0 V c) (wrArr0 V c) (fun f => bArr0 V c (ix2 (0 : Fin 1) (f 0)))

/-- WHAT TILE `t` WRITES BACK is tile `t` of the first layer of the tables the call finds. -/
theorem written0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zeroOffsets]
  simp only [View.ld_unit_zero (S := S4000x128) zeroOffsets, View.ld_unit_zero (S := S128x128) zeroOffsets, View.ld_unit_zero (S := S1x128) zeroOffsets]
  funext j
  obtain ⟨p, q, rfl⟩ : ∃ (p : Fin 4000) (q : Fin 128), j = ix2 p q := ⟨j 0, j 1, eq_ix2 (n0 := 4000) (n1 := 128) j⟩
  show k0_pay1 (F := Ideal) (aTile0 V c t) (xTile0 V c t) (wlTile0 V c t) (wrTile0 V c t) (bTile0 V c t) (ix2 p q)
    = layer0 V c (((cfg0.win 5).blk t).view.emb (ix2 p q))
  have hemb : ((cfg0.win 5).blk t).view.emb (ix2 p q) = (ix2 (tileRow t p) q : Sage.Nodes.Idx) := by
    funext a; apply Fin.ext
    obtain ⟨-, -, -, -, -, -, -, -, -, -, e0, e1⟩ := tiles0 t
    match a with
    | ⟨0, _⟩ => show win0_5.index t (0 : Fin 2) * 4000 + 1 * p.val = t.val * 4000 + p.val; omega
    | ⟨1, _⟩ => show win0_5.index t (1 : Fin 2) * 128 + 1 * q.val = q.val; omega
  rw [hemb]
  refine (pay0_apply (aTile0 V c t) (xTile0 V c t) (wlTile0 V c t) (wrTile0 V c t) (bTile0 V c t) p q).trans ?_
  unfold layer0
  rw [Sage.combineRelu_apply]
  unfold Sage.combineAt
  simp only [aTile0_apply, xTile0_apply, wlTile0_apply, wrTile0_apply, bTile0_apply]

/-- A table index lies in tile `t` iff its row is one of the tile's 4000 rows (its column is any of the 128). -/
theorem inTile0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v26).slice (win0_5.rect t)).set ↔ _
  rw [View.set_slice_whole, Rect.mem_set_unit]
  exact Iff.rfl

/-- Every row belongs to the tile numbered by its quotient by 4000. -/
theorem tiled0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 4000, by show (i 0).val / 4000 < 25; omega⟩
  refine ⟨t, flush0_5 t, ?_⟩
  rw [inTile0]
  obtain ⟨-, -, -, -, -, -, -, -, -, -, e0, e1⟩ := tiles0 t
  have ht : t.val = (i 0).val / 4000 := rfl
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE FIRST CALL'S OUTPUT TABLE after its 25 tiles: the first layer of the tables it found. -/
theorem table0 (c : Dev nD) : (dat0 V c).arrAt 5 cfg0.N = layer0 V c :=
  (dat0 V c).arrAt_eq_of_cover 5 (layer0 V c) (fun t _ => written0 V c t) tiled0

/-! ## The second call -/

/-- The tile each window shows at point `t` of the second call: the same schedule as the first. -/
theorem tiles1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

abbrev aTile1 (c : Dev nD) (t : Fin cfg1.N) : Vec Ideal S4000x128 .f32 := iblk1 V c 0 t
abbrev xTile1 (c : Dev nD) (t : Fin cfg1.N) : Vec Ideal S4000x128 .f32 := iblk1 V c 1 t
abbrev wlTile1 (c : Dev nD) (t : Fin cfg1.N) : Vec Ideal S128x128 .f32 := iblk1 V c 2 t
abbrev wrTile1 (c : Dev nD) (t : Fin cfg1.N) : Vec Ideal S128x128 .f32 := iblk1 V c 3 t
abbrev bTile1 (c : Dev nD) (t : Fin cfg1.N) : Vec Ideal S1x128 .f32 := iblk1 V c 4 t

/-- The tables the second call finds: the mean of the hidden features, the hidden features (the first call's output
    table), the second layer's weights and bias row. -/
abbrev aArr1 (c : Dev nD) : Sage.Nodes.Idx → EReal := V c main_v49
abbrev xArr1 (c : Dev nD) : Sage.Nodes.Idx → EReal := V c main_v26
abbrev wlArr1 (c : Dev nD) : Sage.Wts.Idx → EReal := V c main_v50
abbrev wrArr1 (c : Dev nD) : Sage.Wts.Idx → EReal := V c main_v51
abbrev bArr1 (c : Dev nD) : (⟨2, ![1, 128]⟩ : Shape).Idx → EReal := V c main_v52

theorem aTile1_apply (c : Dev nD) (t : Fin cfg1.N) (p : Fin 4000) (k : Fin 128) :
    aTile1 V c t (ix2 p k) = aArr1 V c (ix2 (tileRow t p) k) := by
  show V c main_v49 (((cfg1.win 0).blk t).view.emb (ix2 p k)) = V c main_v49 (ix2 (tileRow t p) k)
  refine congrArg (V c main_v49) (funext fun a => Fin.ext ?_)
  obtain ⟨e0, e1, -⟩ := tiles1 t
  match a with
  | ⟨0, _⟩ => show win1_0.index t (0 : Fin 2) * 4000 + 1 * p.val = t.val * 4000 + p.val; omega
  | ⟨1, _⟩ => show win1_0.index t (1 : Fin 2) * 128 + 1 * k.val = k.val; omega

theorem xTile1_apply (c : Dev nD) (t : Fin cfg1.N) (p : Fin 4000) (k : Fin 128) :
    xTile1 V c t (ix2 p k) = xArr1 V c (ix2 (tileRow t p) k) := by
  show V c main_v26 (((cfg1.win 1).blk t).view.emb (ix2 p k)) = V c main_v26 (ix2 (tileRow t p) k)
  refine congrArg (V c main_v26) (funext fun a => Fin.ext ?_)
  obtain ⟨-, -, e0, e1, -⟩ := tiles1 t
  match a with
  | ⟨0, _⟩ => show win1_1.index t (0 : Fin 2) * 4000 + 1 * p.val = t.val * 4000 + p.val; omega
  | ⟨1, _⟩ => show win1_1.index t (1 : Fin 2) * 128 + 1 * k.val = k.val; omega

theorem wlTile1_apply (c : Dev nD) (t : Fin cfg1.N) (k q : Fin 128) :
    wlTile1 V c t (ix2 k q) = wlArr1 V c (ix2 k q) := by
  show V c main_v50 (((cfg1.win 2).blk t).view.emb (ix2 k q)) = V c main_v50 (ix2 k q)
  refine congrArg (V c main_v50) (funext fun a => Fin.ext ?_)
  obtain ⟨-, -, -, -, e0, e1, -⟩ := tiles1 t
  match a with
  | ⟨0, _⟩ => show win1_2.index t (0 : Fin 2) * 128 + 1 * k.val = k.val; omega
  | ⟨1, _⟩ => show win1_2.index t (1 : Fin 2) * 128 + 1 * q.val = q.val; omega

theorem wrTile1_apply (c : Dev nD) (t : Fin cfg1.N) (k q : Fin 128) :
    wrTile1 V c t (ix2 k q) = wrArr1 V c (ix2 k q) := by
  show V c main_v51 (((cfg1.win 3).blk t).view.emb (ix2 k q)) = V c main_v51 (ix2 k q)
  refine congrArg (V c main_v51) (funext fun a => Fin.ext ?_)
  obtain ⟨-, -, -, -, -, -, e0, e1, -⟩ := tiles1 t
  match a with
  | ⟨0, _⟩ => show win1_3.index t (0 : Fin 2) * 128 + 1 * k.val = k.val; omega
  | ⟨1, _⟩ => show win1_3.index t (1 : Fin 2) * 128 + 1 * q.val = q.val; omega

theorem bTile1_apply (c : Dev nD) (t : Fin cfg1.N) (q : Fin 128) :
    bTile1 V c t (ix2 (0 : Fin 1) q) = bArr1 V c (ix2 (0 : Fin 1) q) := by
  show V c main_v52 (((cfg1.win 4).blk t).view.emb (ix2 (0 : Fin 1) q)) = V c main_v52 (ix2 (0 : Fin 1) q)
  refine congrArg (V c main_v52) (funext fun a => Fin.ext ?_)
  obtain ⟨-, -, -, -, -, -, -, -, e0, e1, -⟩ := tiles1 t
  match a with
  | ⟨0, _⟩ => show win1_4.index t (0 : Fin 2) * 1 + 1 * 0 = 0; omega
  | ⟨1, _⟩ => show win1_4.index t (1 : Fin 2) * 128 + 1 * q.val = q.val; omega

/-- The second layer (no rectifier) with the bias read off its one-row table. -/
def layer1 (c : Dev nD) : Sage.Nodes.Idx → EReal :=
  Sage.combine (aArr1 V c) (xArr1 V c) (wlArr1 V c) (wrArr1 V c) (fun f => bArr1 V c (ix2 (0 : Fin 1) (f 0)))

/-- WHAT TILE `t` OF THE SECOND CALL WRITES BACK is tile `t` of the second layer of the tables it finds. -/
theorem written1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero zeroOffsets]
  simp only [View.ld_unit_zero (S := S4000x128) zeroOffsets, View.ld_unit_zero (S := S128x128) zeroOffsets, View.ld_unit_zero (S := S1x128) zeroOffsets]
  funext j
  obtain ⟨p, q, rfl⟩ : ∃ (p : Fin 4000) (q : Fin 128), j = ix2 p q := ⟨j 0, j 1, eq_ix2 (n0 := 4000) (n1 := 128) j⟩
  show k1_pay1 (F := Ideal) (aTile1 V c t) (xTile1 V c t) (wlTile1 V c t) (wrTile1 V c t) (bTile1 V c t) (ix2 p q)
    = layer1 V c (((cfg1.win 5).blk t).view.emb (ix2 p q))
  have hemb : ((cfg1.win 5).blk t).view.emb (ix2 p q) = (ix2 (tileRow t p) q : Sage.Nodes.Idx) := by
    funext a; apply Fin.ext
    obtain ⟨-, -, -, -, -, -, -, -, -, -, e0, e1⟩ := tiles1 t
    match a with
    | ⟨0, _⟩ => show win1_5.index t (0 : Fin 2) * 4000 + 1 * p.val = t.val * 4000 + p.val; omega
    | ⟨1, _⟩ => show win1_5.index t (1 : Fin 2) * 128 + 1 * q.val = q.val; omega
  rw [hemb]
  refine (pay1_apply (aTile1 V c t) (xTile1 V c t) (wlTile1 V c t) (wrTile1 V c t) (bTile1 V c t) p q).trans ?_
  unfold layer1
  rw [Sage.combine_apply]
  unfold Sage.combineAt
  simp only [aTile1_apply, xTile1_apply, wlTile1_apply, wrTile1_apply, bTile1_apply]

theorem inTile1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v53).slice (win1_5.rect t)).set ↔ _
  rw [View.set_slice_whole, Rect.mem_set_unit]
  exact Iff.rfl

theorem tiled1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 4000, by show (i 0).val / 4000 < 25; omega⟩
  refine ⟨t, flush1_5 t, ?_⟩
  rw [inTile1]
  obtain ⟨-, -, -, -, -, -, -, -, -, -, e0, e1⟩ := tiles1 t
  have ht : t.val = (i 0).val / 4000 := rfl
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE SECOND CALL'S OUTPUT TABLE after its 25 tiles: the second layer of the tables it found. -/
theorem table1 (c : Dev nD) : (dat1 V c).arrAt 5 cfg1.N = layer1 V c :=
  (dat1 V c).arrAt_eq_of_cover 5 (layer1 V c) (fun t _ => written1 V c t) tiled1

end Cert.KernelIdeal.Layer

end
-- ==== Proof.KernelEntry.lean ====
/-
  The tables each tiled call finds when it is entered, as the host operations before it leave them.
  Before the first call: the neighbours' mean of the input features, the input features themselves, the two
  first-layer weight matrices transposed, and the first bias as a one-row table. Before the second call the
  same of the first call's output table (which no host operation in between writes) with the second layer's
  weights and bias. The edge list and the weights are arguments, which nothing writes.
-/
import proofs.«152219_j35459249996470_1_alg».proof.Proof.KernelIdealFrame
import Idealize.ShloMosaic.Lib.StableHlo.Run

set_option maxRecDepth 16384

noncomputable section

namespace Cert.KernelIdeal.Entry

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- The per-node mean of the neighbours' rows, as the host operations compute it from a feature table `h` and the
    edge list `e` (row 0 the sources, row 1 the targets): negative sources are wrapped by the table's height, the
    sources' rows are gathered and scatter-added at the targets into a zero table, the targets are counted by
    scatter-adding ones into a zero vector, and each row's sum is divided by its count, at least one. The term is
    the operations in program order; nothing in this proof opens it. -/
def neighbourMean (h : (⟨S100000x128, .f32⟩ : BufTy).Contents (Elt F)) (e : (⟨S2x1600000, .i32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

variable (m : (ℓ : Loc nD τ sig) → Buf (Elt F) ℓ) (ρ : Dev nD → PrngReg)

/-! ## Entering the first call -/

set_option maxHeartbeats 4000000 in
theorem first_mean (c : Dev nD) :
    V1 m ρ c main_v22 = neighbourMean (m ((c : Thread nD τ).loc main_arg0)) (m ((c : Thread nD τ).loc main_arg1)) := by
  show StableHlo.after hostOps0 (W0 m ρ c) (Proc.devRef .tc main_v22) = _
  after_results_simp
  rfl

theorem first_x (c : Dev nD) : V1 m ρ c main_arg0 = m ((c : Thread nD τ).loc main_arg0) := by
  show StableHlo.after hostOps0 (W0 m ρ c) (Proc.devRef .tc main_arg0) = _
  after_results

theorem first_wl (c : Dev nD) :
    V1 m ρ c main_v23 = transpose S128x128 [1, 0] (m ((c : Thread nD τ).loc main_arg2)) transposes_S128x128_S128x128_1_0 := by
  show StableHlo.after hostOps0 (W0 m ρ c) (Proc.devRef .tc main_v23) = _
  after_results

theorem first_wr (c : Dev nD) :
    V1 m ρ c main_v24 = transpose S128x128 [1, 0] (m ((c : Thread nD τ).loc main_arg4)) transposes_S128x128_S128x128_1_0 := by
  show StableHlo.after hostOps0 (W0 m ρ c) (Proc.devRef .tc main_v24) = _
  after_results

theorem first_b (c : Dev nD) :
    V1 m ρ c main_v25 = shapeCast _ (m ((c : Thread nD τ).loc main_arg3)) shapeCasts_S128_S1x128 := by
  show StableHlo.after hostOps0 (W0 m ρ c) (Proc.devRef .tc main_v25) = _
  after_results
  rfl

/-! ## Entering the second call

The first call's output table is `main_v26`; between the calls the host reads it and the arguments and writes
neither. `W2` is the memory when the first call returns. -/

set_option maxHeartbeats 4000000 in
theorem second_mean (c : Dev nD) :
    V3 m ρ c main_v49 = neighbourMean (W2 m ρ c (Proc.devRef .tc main_v26)) (W2 m ρ c (Proc.devRef .tc main_arg1)) := by
  show StableHlo.after hostOps1 (W2 m ρ c) (Proc.devRef .tc main_v49) = _
  after_results_simp
  rfl

theorem second_x (c : Dev nD) : V3 m ρ c main_v26 = W2 m ρ c (Proc.devRef .tc main_v26) := by
  show StableHlo.after hostOps1 (W2 m ρ c) (Proc.devRef .tc main_v26) = _
  after_results_simp

theorem second_wl (c : Dev nD) :
    V3 m ρ c main_v50 = transpose S128x128 [1, 0] (W2 m ρ c (Proc.devRef .tc main_arg5)) transposes_S128x128_S128x128_1_0 := by
  show StableHlo.after hostOps1 (W2 m ρ c) (Proc.devRef .tc main_v50) = _
  after_results

theorem second_wr (c : Dev nD) :
    V3 m ρ c main_v51 = transpose S128x128 [1, 0] (W2 m ρ c (Proc.devRef .tc main_arg7)) transposes_S128x128_S128x128_1_0 := by
  show StableHlo.after hostOps1 (W2 m ρ c) (Proc.devRef .tc main_v51) = _
  after_results

theorem second_b (c : Dev nD) :
    V3 m ρ c main_v52 = shapeCast _ (W2 m ρ c (Proc.devRef .tc main_arg6)) shapeCasts_S128_S1x128 := by
  show StableHlo.after hostOps1 (W2 m ρ c) (Proc.devRef .tc main_v52) = _
  after_results
  rfl

/-- An argument the first call does not tile is, when that call returns, what it was at the launch. -/
theorem between_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp
theorem between_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp
theorem between_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp
theorem between_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

/-- The hidden table when the first call returns is what its tiles wrote. -/
theorem between_hidden (c : Dev nD) : W2 m ρ c (Proc.devRef .tc main_v26) = (dat0 (V1 m ρ) c).arrAt 5 cfg0.N :=
  W2_arr m ρ c 5

/-- The result table when the second call returns is what its tiles wrote. -/
theorem result_table (c : Dev nD) : W4 m ρ c (Proc.devRef .tc main_v53) = (dat1 (V3 m ρ) c).arrAt 5 cfg1.N :=
  W4_arr m ρ c 5

end Cert.KernelIdeal.Entry

end
-- ==== Proof.KernelValue.lean ====
/-
  The idealized kernel program's result table as the two layers of `Sage` of its arguments.
  The second call writes the second layer of the tables it finds; those are the neighbours' mean of the hidden
  table, the hidden table, and the second layer's transposed weights and bias; the hidden table is what the
  first call wrote: the rectified first layer of the mean of the input features, the input features, and the
  first layer's transposed weights and bias. A bias enters a call as a one-row table; its row is the bias.
-/
import proofs.«152219_j35459249996470_1_alg».proof.Proof.KernelIdealRun
import proofs.«152219_j35459249996470_1_alg».proof.Proof.KernelLayers
import proofs.«152219_j35459249996470_1_alg».proof.Proof.KernelEntry
import Idealize.ShloMosaic.Lib.ValueLayout

set_option maxRecDepth 16384

noncomputable section

namespace Cert.KernelIdeal.Net

open Cert.KernelIdeal Cert.KernelIdeal.Gen Cert.KernelIdeal.GenP
open Idealize.ShloMosaic Idealize.ShloMosaic.TcCoe Idealize.SL.Sem Idealize.ShloMosaic.ValueIdx

/-- The hidden features: the rectified first layer. -/
def hidden (x : (⟨S100000x128, .f32⟩ : BufTy).Contents (Elt Ideal)) (e : (⟨S2x1600000, .i32⟩ : BufTy).Contents (Elt Ideal)) (w2 : (⟨S128x128, .f32⟩ : BufTy).Contents (Elt Ideal)) (b3 : (⟨S128, .f32⟩ : BufTy).Contents (Elt Ideal)) (w4 : (⟨S128x128, .f32⟩ : BufTy).Contents (Elt Ideal)) : Sage.Nodes.Idx → EReal :=
  Sage.combineRelu (Entry.neighbourMean (F := Ideal) x e) x (transpose S128x128 [1, 0] w2 transposes_S128x128_S128x128_1_0) (transpose S128x128 [1, 0] w4 transposes_S128x128_S128x128_1_0) b3

/-- The network: the second layer of the hidden features. -/
def net (x : (⟨S100000x128, .f32⟩ : BufTy).Contents (Elt Ideal)) (e : (⟨S2x1600000, .i32⟩ : BufTy).Contents (Elt Ideal)) (w2 : (⟨S128x128, .f32⟩ : BufTy).Contents (Elt Ideal)) (b3 : (⟨S128, .f32⟩ : BufTy).Contents (Elt Ideal)) (w4 w5 : (⟨S128x128, .f32⟩ : BufTy).Contents (Elt Ideal)) (b6 : (⟨S128, .f32⟩ : BufTy).Contents (Elt Ideal)) (w7 : (⟨S128x128, .f32⟩ : BufTy).Contents (Elt Ideal)) : Sage.Nodes.Idx → EReal :=
  Sage.combine (Entry.neighbourMean (F := Ideal) (hidden x e w2 b3 w4) e) (hidden x e w2 b3 w4) (transpose S128x128 [1, 0] w5 transposes_S128x128_S128x128_1_0) (transpose S128x128 [1, 0] w7 transposes_S128x128_S128x128_1_0) b6

/-- The one row of a bias reshaped to a one-row table is the bias. -/
theorem biasRow (b : (⟨S128, .f32⟩ : BufTy).Contents (Elt Ideal)) :
    (fun f : Sage.Feat.Idx => (shapeCast S1x128 b shapeCasts_S128_S1x128) (ix2 (0 : Fin 1) (f 0))) = b :=
  funext fun f => (shapeCast_a_1a_apply b shapeCasts_S128_S1x128 0 (f 0)).trans (congrArg b (eq_ix1 f).symm)

variable (m : (ℓ : Loc nD τ sig) → Buf (Elt Ideal) ℓ) (ρ : Dev nD → PrngReg)

/-- The hidden table when the first call returns. -/
theorem hidden_table (c : Dev nD) :
    (W2 m ρ c (Proc.devRef .tc main_v26) : Sage.Nodes.Idx → EReal) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Entry.between_hidden, Layer.table0]
  show Sage.combineRelu (V1 m ρ c main_v22) (V1 m ρ c main_arg0) (V1 m ρ c main_v23) (V1 m ρ c main_v24)
    (fun f => V1 m ρ c main_v25 (ix2 (0 : Fin 1) (f 0))) = _
  rw [Entry.first_mean, Entry.first_x, Entry.first_wl, Entry.first_wr, Entry.first_b, biasRow]
  rfl

/-- The result table when the second call returns. -/
theorem result_table (c : Dev nD) :
    (W4 m ρ c (Proc.devRef .tc main_v53) : Sage.Nodes.Idx → EReal)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Entry.result_table, Layer.table1]
  show Sage.combine (V3 m ρ c main_v49) (V3 m ρ c main_v26) (V3 m ρ c main_v50) (V3 m ρ c main_v51)
    (fun f => V3 m ρ c main_v52 (ix2 (0 : Fin 1) (f 0))) = _
  rw [Entry.second_mean, Entry.second_x, Entry.second_wl, Entry.second_wr, Entry.second_b, Entry.between_arg1, Entry.between_arg5,
    Entry.between_arg6, Entry.between_arg7, hidden_table, biasRow]
  rfl

/-- The idealized kernel program's run: it terminates with the result table at the network of the arguments, which
    end as launched. -/
theorem run : θ_run defs (onTc (τ := τ) (main (F := Ideal))) ⟨m, fun _ => 0, ρ⟩ (fun r => ∀ c : Dev nD,
      r.2.mem ((c.tc : Thread nD τ).loc main_v53) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_table m ρ c), (h c).2⟩) (Run.run_main m ρ)

end Cert.KernelIdeal.Net

end
-- ==== Proof.RefValue.lean ====
/-
  The reference program's result as the two layers of `Sage`, at the extended reals.
  The reference computes each layer as  (mean · wlᵀ + b) + x · wrᵀ  on whole tables, the first followed by
  `max(·, 0)`. Its run's composed term is, by unfolding, `net` below: two `layer`s around the neighbours' mean,
  which stays a closed function of a feature table and the edge list. Read at an index, a `layer` is the two sums
  over the contracted feature and the bias entry; moving the bias past the second product (commutativity and
  associativity of + on the extended reals) gives `Sage.combine`.
-/
import proofs.«152219_j35459249996470_1_alg».proof.Proof.Gen.ReferenceIdeal.Run
import proofs.«152219_j35459249996470_1_alg».proof.Proof.Gen.ReferenceIdeal.Read
import proofs.«152219_j35459249996470_1_alg».proof.Proof.Spec
import Idealize.ShloMosaic.Lib.ValueIdx
import Idealize.ShloMosaic.PureOps.Ideal.Laws

set_option maxRecDepth 16384

noncomputable section

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx

section Terms
variable {F : FTy → Type} [FloatOps F]

/-- The per-node mean of the neighbours' rows, as the host operations compute it from a feature table `h` and the
    edge list `e` (row 0 the sources, row 1 the targets): negative sources are wrapped by the table's height, the
    sources' rows are gathered and scatter-added at the targets into a zero table, the targets are counted by
    scatter-adding ones into a zero vector, and each row's sum is divided by its count, at least one. The term is
    the operations in program order; nothing in this proof opens it. -/
def neighbourMean (h : (⟨S100000x128, .f32⟩ : BufTy).Contents (Elt F)) (e : (⟨S2x1600000, .i32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

/-- One layer on whole tables, in the reference's order: the mean's product, the bias, then the features' product. -/
def layer (mean x : (⟨S100000x128, .f32⟩ : BufTy).Contents (Elt F)) (wl : (⟨S128x128, .f32⟩ : BufTy).Contents (Elt F)) (b : (⟨S128, .f32⟩ : BufTy).Contents (Elt F))
    (wr : (⟨S128x128, .f32⟩ : BufTy).Contents (Elt F)) : (⟨S100000x128, .f32⟩ : BufTy).Contents (Elt F) :=
  addf (addf (Host.dotGeneral dot_S100000x128_S128x128_S100000x128_1_0_0_1_n_n none mean (transpose S128x128 [1, 0] wl transposes_S128x128_S128x128_1_0)) (broadcastInDim S100000x128 ![0, 1] bcast_S1x128_S100000x128_0_1 (broadcastInDim S1x128 ![1] bcast_S128_S1x128_1 b))) (Host.dotGeneral dot_S100000x128_S128x128_S100000x128_1_0_0_1_n_n none x (transpose S128x128 [1, 0] wr transposes_S128x128_S128x128_1_0))

/-- The rectifier on a whole table. -/
def rectify (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The hidden features: the first layer, rectified. -/
def hidden (x : (⟨S100000x128, .f32⟩ : BufTy).Contents (Elt F)) (e : (⟨S2x1600000, .i32⟩ : BufTy).Contents (Elt F)) (w2 : (⟨S128x128, .f32⟩ : BufTy).Contents (Elt F))
    (b3 : (⟨S128, .f32⟩ : BufTy).Contents (Elt F)) (w4 : (⟨S128x128, .f32⟩ : BufTy).Contents (Elt F)) : (⟨S100000x128, .f32⟩ : BufTy).Contents (Elt F) :=
  rectify (layer (neighbourMean x e) x w2 b3 w4)

/-- The whole network: the second layer of the hidden features. -/
def net (x : (⟨S100000x128, .f32⟩ : BufTy).Contents (Elt F)) (e : (⟨S2x1600000, .i32⟩ : BufTy).Contents (Elt F)) (w2 : (⟨S128x128, .f32⟩ : BufTy).Contents (Elt F))
    (b3 : (⟨S128, .f32⟩ : BufTy).Contents (Elt F)) (w4 w5 : (⟨S128x128, .f32⟩ : BufTy).Contents (Elt F))
    (b6 : (⟨S128, .f32⟩ : BufTy).Contents (Elt F)) (w7 : (⟨S128x128, .f32⟩ : BufTy).Contents (Elt F)) : (⟨S100000x128, .f32⟩ : BufTy).Contents (Elt F) :=
  layer (neighbourMean (hidden x e w2 b3 w4) e) (hidden x e w2 b3 w4) w5 b6 w7

/-- The run's composed term is the network of the arguments: the same operations in the same order. -/
theorem result_eq (m : (ℓ : Loc nD τ sig) → Buf (Elt F) ℓ) (c : Dev nD) :
    Value.res_main_v62 (F := F) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Value.res_main_v62 net hidden rectify layer neighbourMean
  rfl

end Terms

/-! ## Read at an index, at the extended reals -/

/-- A table times a transposed weight matrix: entry (r, q) is ∑ₖ l[r, k] · wᵀ[k, q]. -/
theorem product_apply (l : (⟨S100000x128, .f32⟩ : BufTy).Contents (Elt Ideal)) (w : (⟨S128x128, .f32⟩ : BufTy).Contents (Elt Ideal)) (r : Fin 100000) (q : Fin 128) :
    Host.dotGeneral (F := Ideal) (φ₁ := .f32) (φ₂ := .f32) dot_S100000x128_S128x128_S100000x128_1_0_0_1_n_n none l (transpose S128x128 [1, 0] w transposes_S128x128_S128x128_1_0) (ix2 r q)
      = ∑ k : Fin 128, l (ix2 r k) * (transpose S128x128 [1, 0] w transposes_S128x128_S128x128_1_0) (ix2 k q) := by
  refine (Read.val_main_v29_apply l w (ix2 r q)).trans (Finset.sum_congr rfl fun k _ => ?_)
  have el : Read.lidx_main_v29 (ix2 r q) k = ix2 r k := funext fun a => Fin.ext (by
    match a with
    | ⟨0, _⟩ => rfl
    | ⟨1, _⟩ => rfl)
  have er : Read.ridx_main_v29 (ix2 r q) k = ix2 k q := funext fun a => Fin.ext (by
    match a with
    | ⟨0, _⟩ => rfl
    | ⟨1, _⟩ => rfl)
  rw [el, er]
  rfl

/-- The bias broadcast over the rows: entry (r, q) is b[q]. -/
theorem bias_apply (b : (⟨S128, .f32⟩ : BufTy).Contents (Elt Ideal)) (r : Fin 100000) (q : Fin 128) :
    broadcastInDim S100000x128 ![0, 1] bcast_S1x128_S100000x128_0_1 (broadcastInDim S1x128 ![1] bcast_S128_S1x128_1 b) (ix2 r q) = b (ix1 q) := by
  refine (Read.val_main_v26_apply b (ix2 r q)).trans ((Read.val_main_v25_apply b _).trans (congrArg b ?_))
  funext a
  match a with
  | ⟨0, _⟩ => rfl

/-- A reference layer is the layer of `Sage` over the transposed weights. -/
theorem layer_eq (mean x : (⟨S100000x128, .f32⟩ : BufTy).Contents (Elt Ideal)) (wl : (⟨S128x128, .f32⟩ : BufTy).Contents (Elt Ideal))
    (b : (⟨S128, .f32⟩ : BufTy).Contents (Elt Ideal)) (wr : (⟨S128x128, .f32⟩ : BufTy).Contents (Elt Ideal)) :
    (layer (F := Ideal) mean x wl b wr : Sage.Nodes.Idx → EReal) = Sage.combine mean x (transpose S128x128 [1, 0] wl transposes_S128x128_S128x128_1_0) (transpose S128x128 [1, 0] wr transposes_S128x128_S128x128_1_0) b := by
  funext i
  obtain ⟨r, q, rfl⟩ : ∃ (r : Fin 100000) (q : Fin 128), i = ix2 r q := ⟨i 0, i 1, eq_ix2 (n0 := 100000) (n1 := 128) i⟩
  rw [Sage.combine_apply]
  unfold Sage.combineAt layer
  rw [addf_apply, addf_apply, product_apply, product_apply, bias_apply]
  exact Sage.bias_between _ _ _

/-- The rectified reference layer is the rectified layer of `Sage`. -/
theorem rectify_layer_eq (mean x : (⟨S100000x128, .f32⟩ : BufTy).Contents (Elt Ideal)) (wl : (⟨S128x128, .f32⟩ : BufTy).Contents (Elt Ideal))
    (b : (⟨S128, .f32⟩ : BufTy).Contents (Elt Ideal)) (wr : (⟨S128x128, .f32⟩ : BufTy).Contents (Elt Ideal)) :
    (rectify (F := Ideal) (layer mean x wl b wr) : Sage.Nodes.Idx → EReal) = Sage.combineRelu mean x (transpose S128x128 [1, 0] wl transposes_S128x128_S128x128_1_0) (transpose S128x128 [1, 0] wr transposes_S128x128_S128x128_1_0) b := by
  funext i
  obtain ⟨r, q, rfl⟩ : ∃ (r : Fin 100000) (q : Fin 128), i = ix2 r q := ⟨i 0, i 1, eq_ix2 (n0 := 100000) (n1 := 128) i⟩
  rw [Sage.combineRelu_apply, ← Sage.combine_apply, ← layer_eq]
  unfold rectify
  rw [maximumf_apply]
  refine congrArg (max _) ?_
  refine (Read.val_main_call0_v0_apply (F := Ideal) (ix2 r q)).trans ?_
  exact Ideal.ofBits_zero_f32

end Cert.ReferenceIdeal.Net

end
-- ==== Proof.lean ====
/-
  The kernel and its reference compute the same two mean-aggregation graph layers.

  Both programs first form, on the host and by the same operations in the same order, the per-node mean of the
  neighbours' feature rows (a gather of the edge sources' rows, a scatter-add at the edge targets, a division by the
  target counts clamped below by one). The kernel then evaluates each layer  mean · wlᵀ + x · wrᵀ + b  in a tiled
  call over 25 tiles of 4000 nodes (the first followed by `max(·, 0)`), the reference evaluates
  (mean · wlᵀ + b) + x · wrᵀ  on whole tables. At the extended reals a matrix product entry is the plain sum over the
  contracted feature in both, the narrowing of the operands to 16-bit floats is the identity, and the two orders of
  adding the bias agree because addition is commutative and associative there; no finiteness is used.

  The three frames: the two kernel programs' by their frame certificates, the reference's by its run. The idealization
  rewrote nothing, so `preserves` is `True`. The value claim: the kernel program's result table is `Net.net` of the
  arguments (the tiles' write-backs assembled, twice), the reference's run ends at the same function.
-/
import proofs.«152219_j35459249996470_1_alg».proof.Defs
import proofs.«152219_j35459249996470_1_alg».proof.Proof.Gen.Kernel
import proofs.«152219_j35459249996470_1_alg».proof.Proof.Gen.KernelIdeal
import proofs.«152219_j35459249996470_1_alg».proof.Proof.Gen.ReferenceIdeal
import proofs.«152219_j35459249996470_1_alg».proof.Proof.Gen.Pre_finite_inputs
import proofs.«152219_j35459249996470_1_alg».proof.Proof.Gen.ReferenceIdeal.Run
import proofs.«152219_j35459249996470_1_alg».proof.Proof.KernelFrame
import proofs.«152219_j35459249996470_1_alg».proof.Proof.KernelIdealFrame
import proofs.«152219_j35459249996470_1_alg».proof.Proof.KernelValue
import proofs.«152219_j35459249996470_1_alg».proof.Proof.RefValue
import Idealize.ShloMosaic.Adequacy
import Idealize.ShloMosaic.Init

noncomputable section

namespace Cert.Proof

open Idealize.ShloMosaic Idealize.SL.Sem

/-- The neighbours' mean is one function in the two programs: the same operations over the same shape records. -/
theorem mean_agree (h : (⟨Cert.KernelIdeal.S100000x128, .f32⟩ : BufTy).Contents (Elt Ideal))
    (e : (⟨Cert.KernelIdeal.S2x1600000, .i32⟩ : BufTy).Contents (Elt Ideal)) :
    Cert.ReferenceIdeal.Net.neighbourMean (F := Ideal) h e = Cert.KernelIdeal.Entry.neighbourMean (F := Ideal) h e := rfl

/-- The reference's network is the kernel's: layer by layer `Sage`'s, over one mean. -/
theorem net_agree (x : (⟨Cert.KernelIdeal.S100000x128, .f32⟩ : BufTy).Contents (Elt Ideal))
    (e : (⟨Cert.KernelIdeal.S2x1600000, .i32⟩ : BufTy).Contents (Elt Ideal))
    (w2 : (⟨Cert.KernelIdeal.S128x128, .f32⟩ : BufTy).Contents (Elt Ideal)) (b3 : (⟨Cert.KernelIdeal.S128, .f32⟩ : BufTy).Contents (Elt Ideal))
    (w4 w5 : (⟨Cert.KernelIdeal.S128x128, .f32⟩ : BufTy).Contents (Elt Ideal)) (b6 : (⟨Cert.KernelIdeal.S128, .f32⟩ : BufTy).Contents (Elt Ideal))
    (w7 : (⟨Cert.KernelIdeal.S128x128, .f32⟩ : BufTy).Contents (Elt Ideal)) :
    (Cert.ReferenceIdeal.Net.net (F := Ideal) x e w2 b3 w4 w5 b6 w7 : Sage.Nodes.Idx → EReal)
      = Cert.KernelIdeal.Net.net x e w2 b3 w4 w5 b6 w7 := by
  have hh : (Cert.ReferenceIdeal.Net.hidden (F := Ideal) x e w2 b3 w4 : Sage.Nodes.Idx → EReal) = Cert.KernelIdeal.Net.hidden x e w2 b3 w4 := by
    unfold Cert.ReferenceIdeal.Net.hidden Cert.KernelIdeal.Net.hidden
    rw [Cert.ReferenceIdeal.Net.rectify_layer_eq, mean_agree]
  unfold Cert.ReferenceIdeal.Net.net Cert.KernelIdeal.Net.net
  rw [Cert.ReferenceIdeal.Net.layer_eq, hh, mean_agree]

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the network of the (agreeing) arguments. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Net.result_eq, a0, a1, a2, a3, a4, a5, a6, a7]
  exact net_agree _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
